-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .i1⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Dense0.lean ====
import proofs.«103656_j17454747091291_1_alg».proof.Proof.Gen.KernelIdeal.Frame
import Idealize.ShloMosaic.Lib.Pipeline.Value
import Idealize.ShloMosaic.Lib.ValueIdx
import Idealize.ShloMosaic.PureOps.Ideal.Laws

/-!
# The first dense layer's region: the node features times the first weight matrix

The region multiplies a matrix of 100000 rows of 128 entries by a 128 × 128 weight matrix. Its grid has 20 points;
point `t` loads rows `5000·t … 5000·t + 4999` of the left matrix and the whole weight matrix, and stores the product of
the two blocks into the same rows of the output. Narrowing a factor to the shorter float format is the identity on the
extended reals, and the product into a zero accumulator is the plain sum over the contracted axis, so entry `(r, q)` of
what point `t` writes is `∑ k, X (5000·t + r, k) · W (k, q)`: the block of ONE whole-array function, `rowsTimes X W`.
The twenty row blocks tile the output, hence the output array ends holding `rowsTimes X W`.
-/

set_option maxRecDepth 16384

noncomputable section

namespace Cert.KernelIdeal.Dense0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The product of the rows `X` with the weights `W`, entry by entry: the sum over the 128 contracted coordinates. -/
def rowsTimes (X : (⟨S100000x128, .f32⟩ : BufTy).Contents (Elt Ideal)) (W : (⟨S128x128, .f32⟩ : BufTy).Contents (Elt Ideal)) :
    (⟨S100000x128, .f32⟩ : BufTy).Contents (Elt Ideal) :=
  fun i => ∑ k : Fin 128, X (ix2 (i 0) k) * W (ix2 k (i 1))

/-! ## The contraction's operand indices: the left factor is read at (row, k), the right one at (k, column) -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of two blocks into the zero accumulator, at entry `j`: the sum over `k` of the left block at
    `(j 0, k)` times the right block at `(k, j 1)`. -/
theorem blockProduct_apply (l : FVec Ideal S5000x128 .bf16) (r : FVec Ideal S128x128 .bf16) (j : S5000x128.Idx) :
    matmul dot_S5000x128_S128x128_S5000x128_1_0_0_1_n_n none l r (constant S5000x128 .f32 0x00000000#32) j
      = ∑ k : Fin 128, l (ix2 (j 0) k) * r (ix2 k (j 1)) := by
  show FloatOps.matmul dot_S5000x128_S128x128_S5000x128_1_0_0_1_n_n none l r (constant S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = ix2 (j 0) k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx j ((ValueIdx.contrEquiv1 dot_S5000x128_S128x128_S5000x128_1_0_0_1_n_n 128 rfl rfl).symm k) = ix2 k (j 1) := funext fun a => Fin.ext (by
    match a with
    | ⟨0, _⟩ => exact (rhs_axis0 _ _).trans hk
    | ⟨1, _⟩ => exact rhs_axis1 _ _)
  rw [el, er]
  rfl

/-- What the body stores, at entry `j` of the block, when its two loaded blocks agree with whole arrays `X` and `W`
    along row `i 0` and column `i 1`: the entry `i` of `rowsTimes X W`. -/
theorem stored_eq (x0 : Vec Ideal S5000x128 .f32) (x1 : Vec Ideal S128x128 .f32)
    (X : (⟨S100000x128, .f32⟩ : BufTy).Contents (Elt Ideal)) (W : (⟨S128x128, .f32⟩ : BufTy).Contents (Elt Ideal))
    (j : S5000x128.Idx) (i : S100000x128.Idx)
    (h0 : ∀ k : Fin 128, x0 (ix2 (j 0) k) = X (ix2 (i 0) k)) (h1 : ∀ k : Fin 128, x1 (ix2 k (j 1)) = W (ix2 k (i 1))) :
    k0_pay1 (F := Ideal) x0 x1 j = rowsTimes X W i := by
  unfold k0_pay1 rowsTimes
  refine (blockProduct_apply _ _ j).trans ?_
  refine Finset.sum_congr rfl fun k _ => ?_
  show x0 (ix2 (j 0) k) * x1 (ix2 k (j 1)) = _
  rw [h0 k, h1 k]

/-! ## The blocks -/

theorem origin : (![0, 0] : Fin 2 → Nat) = fun _ => 0 := funext fun a => by fin_cases a <;> rfl

/-- The printed index maps over the grid: at point `t` the left window and the output window are on row block `t`,
    column block 0; the weight window stays on block (0, 0). -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem blockOnto : ∀ q : Fin 20, ∃ t : Fin cfg0.N, t.val = q.val :=
  (by decide +kernel : ∀ q : Fin 20, ∃ t : Fin grid0.N, t.val = q.val)

variable (V : (c : Dev nD) → (b : Ref sig .tc) → Buf (Elt Ideal) ((c : Thread nD τ).loc b))

/-- WHAT POINT `t` WRITES BACK is block `t` of `rowsTimes` of the two input arrays as the region finds them. -/
theorem flushed_eq (c : Dev nD) (t : Fin cfg0.N) :
    (dat0 V c).flushed 2 t = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := blockIndices t
  funext j
  refine stored_eq _ _ (V c main_arg0) (V c main_arg2) j (((cfg0.win 2).blk t).view.emb j) (fun k => ?_) (fun k => ?_)
  · show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg2 (((cfg0.win 1).blk t).view.emb (ix2 k (j 1))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The twenty row blocks tile the output: row `r` lies in the block of point `r / 5000`. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := blockOnto ⟨(i 0).val / 5000, by omega⟩
  have ht' : t.val = (i 0).val / 5000 := ht
  obtain ⟨e0, e1, e2, e3, e4, e5⟩ := blockIndices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the region: the product of the two input arrays as the region finds them. -/
theorem array_eq (c : Dev nD) :
    (dat0 V c).arrAt 2 cfg0.N = rowsTimes (V c main_arg0) (V c main_arg2) :=
  (dat0 V c).arrAt_eq_of_cover 2 _ (fun t _ => flushed_eq V c t) covered

end Cert.KernelIdeal.Dense0

end
-- ==== Proof.Act1.lean ====
import proofs.«103656_j17454747091291_1_alg».proof.Proof.Gen.KernelIdeal.Frame
import Idealize.ShloMosaic.Lib.Pipeline.Value
import Idealize.ShloMosaic.Lib.ValueIdx

/-!
# The region between the two layers: add the bias row, then the leaky activation

The region's grid has 20 points; point `t` loads rows `5000·t … 5000·t + 4999` of the aggregated features and the one
bias row, and stores, entry by entry, `h` where `h ≥ 0` and `slope · h` elsewhere, with `h` the feature plus the bias
of its column and `slope` the float word of 11/48. So what point `t` writes is the block of ONE whole-array function,
`biasAct H B`, and since the twenty row blocks tile the output, the output array ends holding `biasAct H B`.
-/

set_option maxRecDepth 16384

noncomputable section

namespace Cert.KernelIdeal.Act1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]

/-- A feature plus the bias of its column. -/
def biased (H : (⟨S100000x128, .f32⟩ : BufTy).Contents (Elt F)) (B : (⟨S1x128, .f32⟩ : BufTy).Contents (Elt F)) (i : S100000x128.Idx) : F .f32 :=
  FloatOps.addf (H i) (B (ix2 0 (i 1)))

/-- The biased feature where it is at least zero, `slope` times it elsewhere. -/
def biasAct (H : (⟨S100000x128, .f32⟩ : BufTy).Contents (Elt F)) (B : (⟨S1x128, .f32⟩ : BufTy).Contents (Elt F)) :
    (⟨S100000x128, .f32⟩ : BufTy).Contents (Elt F) :=
  fun i => Scalar.select (FloatOps.cmpf .oge (biased H B i) (FloatOps.ofBits .f32 0x00000000#32)) (biased H B i)
    (FloatOps.mulf (FloatOps.ofBits .f32 0x3E6AAAAB#32) (biased H B i))

/-- The bias row spread over the block's rows, read at an entry: the row's entry of that column. -/
theorem spread_apply (x1 : Vec F S1x128 .f32) (h : S1x128.Broadcasts S5000x128) (j : S5000x128.Idx) :
    broadcastTo S5000x128 x1 h j = x1 (ix2 0 (j 1)) :=
  broadcastTo_apply x1 h j (ix2 0 (j 1)) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- What the body stores, at entry `j` of the block, when its loaded blocks agree with whole arrays `H` and `B` at
    the entry `i` and at `i`'s column: the entry `i` of `biasAct H B`. -/
theorem stored_eq (x0 : Vec F S5000x128 .f32) (x1 : Vec F S1x128 .f32)
    (H : (⟨S100000x128, .f32⟩ : BufTy).Contents (Elt F)) (B : (⟨S1x128, .f32⟩ : BufTy).Contents (Elt F))
    (j : S5000x128.Idx) (i : S100000x128.Idx)
    (h0 : x0 j = H i) (h1 : x1 (ix2 0 (j 1)) = B (ix2 0 (i 1))) :
    k1_pay1 x0 x1 j = biasAct H B i := by
  unfold k1_pay1 biasAct biased
  rw [shapeCast_self x0, shapeCast_self x1]
  show Scalar.select (FloatOps.cmpf .oge (FloatOps.addf (x0 j) (broadcastTo S5000x128 x1 _ j)) _)
      (FloatOps.addf (x0 j) (broadcastTo S5000x128 x1 _ j)) (FloatOps.mulf _ (FloatOps.addf (x0 j) (broadcastTo S5000x128 x1 _ j))) = _
  rw [spread_apply, h0, h1]
  rfl

/-! ## The blocks -/

theorem origin : (![0, 0] : Fin 2 → Nat) = fun _ => 0 := funext fun a => by fin_cases a <;> rfl

/-- The printed index maps over the grid: at point `t` the feature window and the output window are on row block `t`,
    column block 0; the bias window stays on block (0, 0). -/
theorem blockIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some point's. -/
theorem blockOnto : ∀ q : Fin 20, ∃ t : Fin cfg1.N, t.val = q.val :=
  (by decide +kernel : ∀ q : Fin 20, ∃ t : Fin grid1.N, t.val = q.val)

variable (V : (c : Dev nD) → (b : Ref sig .tc) → Buf (Elt F) ((c : Thread nD τ).loc b))

/-- WHAT POINT `t` WRITES BACK is block `t` of `biasAct` of the two input arrays as the region finds them. -/
theorem flushed_eq (c : Dev nD) (t : Fin cfg1.N) :
    (dat1 V c).flushed 2 t = ((cfg1.win 2).blk t).view.read (Elt F) (biasAct (V c main_v43) (V c main_v44)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := blockIndices t
  funext j
  refine stored_eq _ _ (V c main_v43) (V c main_v44) j (((cfg1.win 2).blk t).view.emb j) ?_ ?_
  · show V c main_v43 (((cfg1.win 0).blk t).view.emb j) = _
    refine congrArg (V c main_v43) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show V c main_v44 (((cfg1.win 1).blk t).view.emb (ix2 0 (j 1))) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the output array is in point `t`'s block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The twenty row blocks tile the output: row `r` lies in the block of point `r / 5000`. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := blockOnto ⟨(i 0).val / 5000, by omega⟩
  have ht' : t.val = (i 0).val / 5000 := ht
  obtain ⟨e0, e1, e2, e3, e4, e5⟩ := blockIndices t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after the region: `biasAct` of the two input arrays as the region finds them. -/
theorem array_eq (c : Dev nD) :
    (dat1 V c).arrAt 2 cfg1.N = biasAct (V c main_v43) (V c main_v44) :=
  (dat1 V c).arrAt_eq_of_cover 2 _ (fun t _ => flushed_eq V c t) covered

end Cert.KernelIdeal.Act1

end
-- ==== Proof.Dense2.lean ====
import proofs.«103656_j17454747091291_1_alg».proof.Proof.Gen.KernelIdeal.Frame
import Idealize.ShloMosaic.Lib.Pipeline.Value
import Idealize.ShloMosaic.Lib.ValueIdx
import Idealize.ShloMosaic.PureOps.Ideal.Laws

/-!
# The second dense layer's region: the hidden features times the second weight matrix

The region multiplies a matrix of 100000 rows of 128 entries by a 128 × 64 weight matrix. Its grid has 20 points;
point `t` loads rows `5000·t … 5000·t + 4999` of the left matrix and the whole weight matrix, and stores the product of
the two blocks into the same rows of the output. Narrowing a factor to the shorter float format is the identity on the
extended reals, and the product into a zero accumulator is the plain sum over the contracted axis, so entry `(r, q)` of
what point `t` writes is `∑ k, X (5000·t + r, k) · W (k, q)`: the block of ONE whole-array function, `rowsTimes X W`.
The twenty row blocks tile the output, hence the output array ends holding `rowsTimes X W`.
-/

set_option maxRecDepth 16384

noncomputable section

namespace Cert.KernelIdeal.Dense2

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The product of the rows `X` with the weights `W`, entry by entry: the sum over the 128 contracted coordinates. -/
def rowsTimes (X : (⟨S100000x128, .f32⟩ : BufTy).Contents (Elt Ideal)) (W : (⟨S128x64, .f32⟩ : BufTy).Contents (Elt Ideal)) :
    (⟨S100000x64, .f32⟩ : BufTy).Contents (Elt Ideal) :=
  fun i => ∑ k : Fin 128, X (ix2 (i 0) k) * W (ix2 k (i 1))

/-! ## The contraction's operand indices: the left factor is read at (row, k), the right one at (k, column) -/

theorem lhs_axis0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_axis1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_axis0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_axis1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product of two blocks into the zero accumulator, at entry `j`: the sum over `k` of the left block at
    `(j 0, k)` times the right block at `(k, j 1)`. -/
theorem blockProduct_apply (l : FVec Ideal S5000x128 .bf16) (r : FVec Ideal S128x64 .bf16) (j : S5000x64.Idx) :
    matmul dot_S5000x128_S128x64_S5000x64_1_0_0_1_n_n none l r (constant S5000x64 .f32 0x00000000#32) j
      = ∑ k : Fin 128, l (ix2 (j 0) k) * r (ix2 k (j 1)) := by
  show FloatOps.matmul dot_S5000x128_S128x64_S5000x64_1_0_0_1_n_n none l r (constant S5000x64 .f32 0x00000000#32) j = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = ix2 (j 0) k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx j ((ValueIdx.contrEquiv1 dot_S5000x128_S128x64_S5000x64_1_0_0_1_n_n 128 rfl rfl).symm k) = ix2 k (j 1) := funext fun a => Fin.ext (by
    match a with
    | ⟨0, _⟩ => exact (rhs_axis0 _ _).trans hk
    | ⟨1, _⟩ => exact rhs_axis1 _ _)
  rw [el, er]
  rfl

/-- What the body stores, at entry `j` of the block, when its two loaded blocks agree with whole arrays `X` and `W`
    along row `i 0` and column `i 1`: the entry `i` of `rowsTimes X W`. -/
theorem stored_eq (x0 : Vec Ideal S5000x128 .f32) (x1 : Vec Ideal S128x64 .f32)
    (X : (⟨S100000x128, .f32⟩ : BufTy).Contents (Elt Ideal)) (W : (⟨S128x64, .f32⟩ : BufTy).Contents (Elt Ideal))
    (j : S5000x64.Idx) (i : S100000x64.Idx)
    (h0 : ∀ k : Fin 128, x0 (ix2 (j 0) k) = X (ix2 (i 0) k)) (h1 : ∀ k : Fin 128, x1 (ix2 k (j 1)) = W (ix2 k (i 1))) :
    k2_pay1 (F := Ideal) x0 x1 j = rowsTimes X W i := by
  unfold k2_pay1 rowsTimes
  rw [shapeCast_self x0]
  refine (blockProduct_apply _ _ j).trans ?_
  refine Finset.sum_congr rfl fun k _ => ?_
  show x0 (ix2 (j 0) k) * x1 (ix2 k (j 1)) = _
  rw [h0 k, h1 k]

/-! ## The blocks -/

theorem origin : (![0, 0] : Fin 2 → Nat) = fun _ => 0 := funext fun a => by fin_cases a <;> rfl

/-- The printed index maps over the grid: at point `t` the left window and the output window are on row block `t`,
    column block 0; the weight window stays on block (0, 0). -/
theorem blockIndices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem blockOnto : ∀ q : Fin 20, ∃ t : Fin cfg2.N, t.val = q.val :=
  (by decide +kernel : ∀ q : Fin 20, ∃ t : Fin grid2.N, t.val = q.val)

variable (V : (c : Dev nD) → (b : Ref sig .tc) → Buf (Elt Ideal) ((c : Thread nD τ).loc b))

/-- WHAT POINT `t` WRITES BACK is block `t` of `rowsTimes` of the two input arrays as the region finds them. -/
theorem flushed_eq (c : Dev nD) (t : Fin cfg2.N) :
    (dat2 V c).flushed 2 t = ((cfg2.win 2).blk t).view.read (Elt Ideal) (rowsTimes (V c main_v45) (V c main_arg4)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x64) origin]
  obtain ⟨e0, e1, e2, e3, e4, e5⟩ := blockIndices t
  funext j
  refine stored_eq _ _ (V c main_v45) (V c main_arg4) j (((cfg2.win 2).blk t).view.emb j) (fun k => ?_) (fun k => ?_)
  · show V c main_v45 (((cfg2.win 0).blk t).view.emb (ix2 (j 0) k)) = _
    refine congrArg (V c main_v45) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg4 (((cfg2.win 1).blk t).view.emb (ix2 k (j 1))) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega

/-- An index of the output array is in point `t`'s block iff each coordinate is in the block's range on its axis. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The twenty row blocks tile the output: row `r` lies in the block of point `r / 5000`. -/
theorem covered (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := blockOnto ⟨(i 0).val / 5000, by omega⟩
  have ht' : t.val = (i 0).val / 5000 := ht
  obtain ⟨e0, e1, e2, e3, e4, e5⟩ := blockIndices t
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- THE OUTPUT ARRAY after the region: the product of the two input arrays as the region finds them. -/
theorem array_eq (c : Dev nD) :
    (dat2 V c).arrAt 2 cfg2.N = rowsTimes (V c main_v45) (V c main_arg4) :=
  (dat2 V c).arrAt_eq_of_cover 2 _ (fun t _ => flushed_eq V c t) covered

end Cert.KernelIdeal.Dense2

end
-- ==== Proof.Bias3.lean ====
import proofs.«103656_j17454747091291_1_alg».proof.Proof.Gen.KernelIdeal.Frame
import Idealize.ShloMosaic.Lib.Pipeline.Value
import Idealize.ShloMosaic.Lib.ValueIdx

/-!
# The last region: add the second layer's bias row

The region's grid has 20 points; point `t` loads rows `5000·t … 5000·t + 4999` of the aggregated second-layer features
and the one bias row of 64 entries, and stores each feature plus the bias of its column. What point `t` writes is the
block of ONE whole-array function, `plusBias H B`, and the twenty row blocks tile the output, so the output array ends
holding `plusBias H B`.
-/

set_option maxRecDepth 16384

noncomputable section

namespace Cert.KernelIdeal.Bias3

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]

/-- Each feature plus the bias of its column. -/
def plusBias (H : (⟨S100000x64, .f32⟩ : BufTy).Contents (Elt F)) (B : (⟨S1x64, .f32⟩ : BufTy).Contents (Elt F)) :
    (⟨S100000x64, .f32⟩ : BufTy).Contents (Elt F) :=
  fun i => FloatOps.addf (H i) (B (ix2 0 (i 1)))

/-- The bias row spread over the block's rows, read at an entry: the row's entry of that column. -/
theorem spread_apply (x1 : Vec F S1x64 .f32) (h : S1x64.Broadcasts S5000x64) (j : S5000x64.Idx) :
    broadcastTo S5000x64 x1 h j = x1 (ix2 0 (j 1)) :=
  broadcastTo_apply x1 h j (ix2 0 (j 1)) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])

/-- What the body stores, at entry `j` of the block, when its loaded blocks agree with whole arrays `H` and `B` at
    the entry `i` and at `i`'s column: the entry `i` of `plusBias H B`. -/
theorem stored_eq (x0 : Vec F S5000x64 .f32) (x1 : Vec F S1x64 .f32)
    (H : (⟨S100000x64, .f32⟩ : BufTy).Contents (Elt F)) (B : (⟨S1x64, .f32⟩ : BufTy).Contents (Elt F))
    (j : S5000x64.Idx) (i : S100000x64.Idx)
    (h0 : x0 j = H i) (h1 : x1 (ix2 0 (j 1)) = B (ix2 0 (i 1))) :
    k3_pay1 x0 x1 j = plusBias H B i := by
  unfold k3_pay1 plusBias
  rw [shapeCast_self x0, shapeCast_self x1]
  show FloatOps.addf (x0 j) (broadcastTo S5000x64 x1 _ j) = _
  rw [spread_apply, h0, h1]

/-! ## The blocks -/

theorem origin : (![0, 0] : Fin 2 → Nat) = fun _ => 0 := funext fun a => by fin_cases a <;> rfl

/-- The printed index maps over the grid: at point `t` the feature window and the output window are on row block `t`,
    column block 0; the bias window stays on block (0, 0). -/
theorem blockIndices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block is some point's. -/
theorem blockOnto : ∀ q : Fin 20, ∃ t : Fin cfg3.N, t.val = q.val :=
  (by decide +kernel : ∀ q : Fin 20, ∃ t : Fin grid3.N, t.val = q.val)

variable (V : (c : Dev nD) → (b : Ref sig .tc) → Buf (Elt F) ((c : Thread nD τ).loc b))

/-- WHAT POINT `t` WRITES BACK is block `t` of `plusBias` of the two input arrays as the region finds them. -/
theorem flushed_eq (c : Dev nD) (t : Fin cfg3.N) :
    (dat3 V c).flushed 2 t = ((cfg3.win 2).blk t).view.read (Elt F) (plusBias (V c main_v59) (V c main_v60)) := by
  show (cfg3.win 2).cut (grid3.coords t) ((dat3 V c).after 2 t) = _
  rw [after3_2]
  unfold out3_2
  rw [View.canon_unit_zero origin]
  simp only [View.ld_unit_zero (S := S5000x64) origin, View.ld_unit_zero (S := S1x64) origin]
  obtain ⟨e0, e1, e2, e3, e4, e5⟩ := blockIndices t
  funext j
  refine stored_eq _ _ (V c main_v59) (V c main_v60) j (((cfg3.win 2).blk t).view.emb j) ?_ ?_
  · show V c main_v59 (((cfg3.win 0).blk t).view.emb j) = _
    refine congrArg (V c main_v59) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  · show V c main_v60 (((cfg3.win 1).blk t).view.emb (ix2 0 (j 1))) = _
    refine congrArg (V c main_v60) (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega

/-- An index of the output array is in point `t`'s block iff each coordinate is in the block's range on its axis. -/
theorem mem_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The twenty row blocks tile the output: row `r` lies in the block of point `r / 5000`. -/
theorem covered (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := blockOnto ⟨(i 0).val / 5000, by omega⟩
  have ht' : t.val = (i 0).val / 5000 := ht
  obtain ⟨e0, e1, e2, e3, e4, e5⟩ := blockIndices t
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- THE OUTPUT ARRAY after the region: `plusBias` of the two input arrays as the region finds them. -/
theorem array_eq (c : Dev nD) :
    (dat3 V c).arrAt 2 cfg3.N = plusBias (V c main_v59) (V c main_v60) :=
  (dat3 V c).arrAt_eq_of_cover 2 _ (fun t _ => flushed_eq V c t) covered

end Cert.KernelIdeal.Bias3

end
-- ==== Proof.Edges.lean ====
import proofs.«103656_j17454747091291_1_alg».proof.Proof.Gen.KernelIdeal.Launch
import proofs.«103656_j17454747091291_1_alg».proof.Proof.ReferenceRead
import Idealize.ShloMosaic.Lib.StableHlo.Run

/-!
# The edge lists and the edge weights: the host operations before the first region

Both programs start with the same forty host operations on the edge index `e` alone: the sources and the targets of the
edges with one self-loop per node appended (`%3`, `%6`), the degree of every node as a scatter-add of ones over the
targets, its inverse square root where the degree is positive and zero elsewhere, and the weight of an edge, the product
of that quantity at its source and at its target (`%29`). Here the kernel program's three stretches are read from ANY
buffer contents `Wv`: what they leave in those three buffers is the reference's stage of the same name, applied to what
`Wv` holds in the edge-index argument. Nothing here depends on the float family.
-/

set_option maxRecDepth 16384

noncomputable section

namespace Cert.KernelIdeal.Edges

open Cert.KernelIdeal Cert.KernelIdeal.Gen
open Idealize.ShloMosaic Idealize.ShloMosaic.TcCoe Idealize.SL.Sem Idealize.ShloMosaic.StableHlo

variable {F : FTy → Type} [FloatOps F]
variable (Wv : Valuation τ sig (Elt F))

/-- The sources, self-loops appended. -/
theorem sources_eq : after hostOps0_2 (after hostOps0_1 (after hostOps0 Wv)) (Proc.devRef .tc main_v3)
    = Cert.ReferenceIdeal.ReadP.val_main_v3 (F := F) (Wv (Proc.devRef .tc main_arg1)) := by
  after_results_simp
  rfl

/-- The targets, self-loops appended. -/
theorem targets_eq : after hostOps0_2 (after hostOps0_1 (after hostOps0 Wv)) (Proc.devRef .tc main_v6)
    = Cert.ReferenceIdeal.ReadP.val_main_v6 (F := F) (Wv (Proc.devRef .tc main_arg1)) := by
  after_results_simp
  rfl

/-- The edge weights: the inverse square roots of the two end nodes' degrees, multiplied. -/
theorem weights_eq : after hostOps0_2 (after hostOps0_1 (after hostOps0 Wv)) (Proc.devRef .tc main_v29)
    = Cert.ReferenceIdeal.ReadP.val_main_v29 (F := F) (Wv (Proc.devRef .tc main_arg1)) := by
  after_results_simp
  rfl

/-- No operation of the three stretches writes an argument of the program. -/
theorem kept (b : Ref sig .tc) (hb : b = main_arg0 ∨ b = main_arg1 ∨ b = main_arg2 ∨ b = main_arg3 ∨ b = main_arg4 ∨ b = main_arg5) :
    after hostOps0_2 (after hostOps0_1 (after hostOps0 Wv)) (Proc.devRef .tc b) = Wv (Proc.devRef .tc b) := by
  rcases hb with rfl | rfl | rfl | rfl | rfl | rfl <;> (after_results_simp)

end Cert.KernelIdeal.Edges

end
-- ==== Proof.Aggregate1.lean ====
import proofs.«103656_j17454747091291_1_alg».proof.Proof.Gen.KernelIdeal.Launch
import proofs.«103656_j17454747091291_1_alg».proof.Proof.ReferenceRead
import Idealize.ShloMosaic.Lib.StableHlo.Run

/-!
# The first aggregation: the host operations between the first and the second region

Between the first dense region and the bias-and-activation region both programs gather, for every edge, the source node's row
of the transformed features, scale it by the edge's weight and add it into the target node's row; the kernel program then
lays the first bias vector out as one row for the region that follows. Here that stretch is read from ANY buffer
contents `Wv`, and the reference's stage of the same aggregate is shown to be the same function of its own stages.
Nothing here depends on the float family.
-/

set_option maxRecDepth 16384

noncomputable section

namespace Cert.KernelIdeal.Aggregate1

open Cert.KernelIdeal Cert.KernelIdeal.Gen
open Idealize.ShloMosaic Idealize.ShloMosaic.TcCoe Idealize.SL.Sem Idealize.ShloMosaic.StableHlo

variable {F : FTy → Type} [FloatOps F]

/-- Gather the source node's row of `h` for every edge, scale it by the edge's weight, and add it into the target
    node's row of a zero array. A negative node index is first moved up by the number of nodes, as the host's indexing
    does. -/
def aggregate (h : (⟨S100000x128, .f32⟩ : BufTy).Contents (Elt F)) (src dst : (⟨S1700000, .i32⟩ : BufTy).Contents (Elt F))
    (wt : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf
      (Host.gather gather_S100000x128_S1700000x1_S1700000x128_1_0_n_n_0_1_1128 h
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x128 ![0, 1] bcast_S1700000x1_S1700000x128_0_1
        (broadcastInDim S1700000x1 ![0] bcast_S1700000_S1700000x1_0 wt)))

variable (Wv : Valuation τ sig (Elt F))

/-- The stretch leaves in the aggregate's buffer the aggregate of what it finds in the features', the sources', the
    targets' and the weights' buffers. -/
theorem aggregate_eq : after hostOps1 Wv (Proc.devRef .tc main_v43)
    = aggregate (Wv (Proc.devRef .tc main_v30)) (Wv (Proc.devRef .tc main_v3)) (Wv (Proc.devRef .tc main_v6)) (Wv (Proc.devRef .tc main_v29)) := by
  after_results_simp
  rfl

/-- The stretch leaves in the bias row's buffer the bias vector laid out as one row. -/
theorem biasRow_eq : after hostOps1 Wv (Proc.devRef .tc main_v44)
    = shapeCast S1x128 (Wv (Proc.devRef .tc main_arg3)) shapeCasts_S128_S1x128 := by
  after_results_simp
  rfl

/-- The stretch writes none of the buffers the later items still read unchanged. -/
theorem kept (b : Ref sig .tc) (hb : b = main_v3 ∨ b = main_v6 ∨ b = main_v29 ∨ b = main_arg4 ∨ b = main_arg5) :
    after hostOps1 Wv (Proc.devRef .tc b) = Wv (Proc.devRef .tc b) := by
  rcases hb with rfl | rfl | rfl | rfl | rfl <;> (after_results_simp)

/-- The reference's stage of the same aggregate is `aggregate` of its own stages of the features, the sources, the
    targets and the weights. -/
theorem reference_eq (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x128, .f32⟩ : BufTy).Contents (Elt F)) :
    Cert.ReferenceIdeal.ReadP.val_main_v43 (F := F) x0 x1 x2 = aggregate (Cert.ReferenceIdeal.ReadP.val_main_v30 (F := F) x0 x2) (Cert.ReferenceIdeal.ReadP.val_main_v3 (F := F) x1) (Cert.ReferenceIdeal.ReadP.val_main_v6 (F := F) x1) (Cert.ReferenceIdeal.ReadP.val_main_v29 (F := F) x1) := rfl

end Cert.KernelIdeal.Aggregate1

end
-- ==== Proof.Aggregate3.lean ====
import proofs.«103656_j17454747091291_1_alg».proof.Proof.Gen.KernelIdeal.Launch
import proofs.«103656_j17454747091291_1_alg».proof.Proof.ReferenceRead
import Idealize.ShloMosaic.Lib.StableHlo.Run

/-!
# The second aggregation: the host operations between the third and the last region

Between the second dense region and the last region both programs gather, for every edge, the source node's row of the
second layer's transformed features, scale it by the edge's weight and add it into the target node's row; the kernel program then
lays the second bias vector out as one row for the region that follows. Here that stretch is read from ANY buffer
contents `Wv`, and the reference's stage of the same aggregate is shown to be the same function of its own stages.
Nothing here depends on the float family.
-/

set_option maxRecDepth 16384

noncomputable section

namespace Cert.KernelIdeal.Aggregate3

open Cert.KernelIdeal Cert.KernelIdeal.Gen
open Idealize.ShloMosaic Idealize.ShloMosaic.TcCoe Idealize.SL.Sem Idealize.ShloMosaic.StableHlo

variable {F : FTy → Type} [FloatOps F]

/-- Gather the source node's row of `h` for every edge, scale it by the edge's weight, and add it into the target
    node's row of a zero array. A negative node index is first moved up by the number of nodes, as the host's indexing
    does. -/
def aggregate (h : (⟨S100000x64, .f32⟩ : BufTy).Contents (Elt F)) (src dst : (⟨S1700000, .i32⟩ : BufTy).Contents (Elt F))
    (wt : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf
      (Host.gather gather_S100000x64_S1700000x1_S1700000x64_1_0_n_n_0_1_164 h
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x64 ![0, 1] bcast_S1700000x1_S1700000x64_0_1
        (broadcastInDim S1700000x1 ![0] bcast_S1700000_S1700000x1_0 wt)))

variable (Wv : Valuation τ sig (Elt F))

/-- The stretch leaves in the aggregate's buffer the aggregate of what it finds in the features', the sources', the
    targets' and the weights' buffers. -/
theorem aggregate_eq : after hostOps3 Wv (Proc.devRef .tc main_v59)
    = aggregate (Wv (Proc.devRef .tc main_v46)) (Wv (Proc.devRef .tc main_v3)) (Wv (Proc.devRef .tc main_v6)) (Wv (Proc.devRef .tc main_v29)) := by
  after_results_simp
  rfl

/-- The stretch leaves in the bias row's buffer the bias vector laid out as one row. -/
theorem biasRow_eq : after hostOps3 Wv (Proc.devRef .tc main_v60)
    = shapeCast S1x64 (Wv (Proc.devRef .tc main_arg5)) shapeCasts_S64_S1x64 := by
  after_results_simp
  rfl

/-- The stretch writes none of the buffers the later items still read unchanged. -/
theorem kept (b : Ref sig .tc) (hb : b = main_v3 ∨ b = main_v6 ∨ b = main_v29 ∨ b = main_arg4 ∨ b = main_arg5) :
    after hostOps3 Wv (Proc.devRef .tc b) = Wv (Proc.devRef .tc b) := by
  rcases hb with rfl | rfl | rfl | rfl | rfl <;> (after_results_simp)

/-- The reference's stage of the same aggregate is `aggregate` of its own stages of the features, the sources, the
    targets and the weights. -/
theorem reference_eq (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x128, .f32⟩ : BufTy).Contents (Elt F)) (x3 : (⟨Cert.ReferenceIdeal.S128, .f32⟩ : BufTy).Contents (Elt F)) (x4 : (⟨Cert.ReferenceIdeal.S128x64, .f32⟩ : BufTy).Contents (Elt F)) :
    Cert.ReferenceIdeal.ReadP.val_main_v65 (F := F) x0 x1 x2 x3 x4 = aggregate (Cert.ReferenceIdeal.ReadP.val_main_v52 (F := F) x0 x1 x2 x3 x4) (Cert.ReferenceIdeal.ReadP.val_main_v3 (F := F) x1) (Cert.ReferenceIdeal.ReadP.val_main_v6 (F := F) x1) (Cert.ReferenceIdeal.ReadP.val_main_v29 (F := F) x1) := rfl

end Cert.KernelIdeal.Aggregate3

end
-- ==== Proof.Result.lean ====
import proofs.«103656_j17454747091291_1_alg».proof.Proof.KernelRun
import proofs.«103656_j17454747091291_1_alg».proof.Proof.Dense0
import proofs.«103656_j17454747091291_1_alg».proof.Proof.Act1
import proofs.«103656_j17454747091291_1_alg».proof.Proof.Dense2
import proofs.«103656_j17454747091291_1_alg».proof.Proof.Bias3
import proofs.«103656_j17454747091291_1_alg».proof.Proof.Edges
import proofs.«103656_j17454747091291_1_alg».proof.Proof.Aggregate1
import proofs.«103656_j17454747091291_1_alg».proof.Proof.Aggregate3
import proofs.«103656_j17454747091291_1_alg».proof.Proof.ReferenceRead
import Idealize.ShloMosaic.Lib.Pipeline.Value
import Idealize.ShloMosaic.Lib.ValueIdx

/-!
# The kernel program's result is the reference's last stage

The kernel program is nine segments: three host stretches, the first dense region, a host stretch, the bias-and-activation
region, the second dense region, a host stretch, and the bias region. Its run leaves the result array at the contents
the fold of the segments gives it (`Gen.W9`). Walking that fold from the launch, every value a later segment reads is the
reference's stage of the same mathematical name, applied to the six arguments:

* after the three stretches: the sources, the targets and the edge weights (functions of the edge index alone);
* after the first dense region: `X · W₁`, entry by entry the same sum over the 128 contracted coordinates as the
  reference's matrix product;
* after the next stretch: the aggregate of those rows over the edges, and the first bias as one row;
* after the bias-and-activation region: the aggregate plus the bias, passed through the leaky activation;
* after the second dense region: that times `W₂`;
* after the last stretch: its aggregate over the edges, and the second bias as one row;
* after the bias region: the aggregate plus the bias, which is the reference's result.

No law of the extended reals is used beyond the two dense regions' reading of a block product as a sum: every other step
is the same operation on equal operands.
-/

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The reference's index functions are the plain coordinate pairs -/

theorem lidx30 (i : Cert.ReferenceIdeal.S100000x128.Idx) (k : Fin 128) : Cert.ReferenceIdeal.ReadP.lidx_main_v30 i k = ix2 (i 0) k :=
  funext fun a => match a with | ⟨0, _⟩ => rfl | ⟨1, _⟩ => rfl
theorem ridx30 (i : Cert.ReferenceIdeal.S100000x128.Idx) (k : Fin 128) : Cert.ReferenceIdeal.ReadP.ridx_main_v30 i k = ix2 k (i 1) :=
  funext fun a => match a with | ⟨0, _⟩ => rfl | ⟨1, _⟩ => rfl
theorem lidx52 (i : Cert.ReferenceIdeal.S100000x64.Idx) (k : Fin 128) : Cert.ReferenceIdeal.ReadP.lidx_main_v52 i k = ix2 (i 0) k :=
  funext fun a => match a with | ⟨0, _⟩ => rfl | ⟨1, _⟩ => rfl
theorem ridx52 (i : Cert.ReferenceIdeal.S100000x64.Idx) (k : Fin 128) : Cert.ReferenceIdeal.ReadP.ridx_main_v52 i k = ix2 k (i 1) :=
  funext fun a => match a with | ⟨0, _⟩ => rfl | ⟨1, _⟩ => rfl

/-- A vector of 128 entries laid out as one row, read at column `q`: the vector's entry `q`. -/
theorem row128_apply (x : (⟨S128, .f32⟩ : BufTy).Contents (Elt Ideal)) (h : S128.ShapeCasts S1x128) (i : Cert.ReferenceIdeal.S100000x128.Idx) :
    shapeCast S1x128 x h (ix2 0 (i 1)) = x (Cert.ReferenceIdeal.ReadP.idx_main_v44 (Cert.ReferenceIdeal.ReadP.idx_main_v45 i)) :=
  shapeCast_apply x h _ _ (by rw [Shape.rowMajor_val_one, Shape.rowMajor_val_two]; show (i 1).val = 0 * 128 + (i 1).val; omega)

/-- A vector of 64 entries laid out as one row, read at column `q`: the vector's entry `q`. -/
theorem row64_apply (x : (⟨S64, .f32⟩ : BufTy).Contents (Elt Ideal)) (h : S64.ShapeCasts S1x64) (i : Cert.ReferenceIdeal.S100000x64.Idx) :
    shapeCast S1x64 x h (ix2 0 (i 1)) = x (Cert.ReferenceIdeal.ReadP.idx_main_v66 (Cert.ReferenceIdeal.ReadP.idx_main_v67 i)) :=
  shapeCast_apply x h _ _ (by rw [Shape.rowMajor_val_one, Shape.rowMajor_val_two]; show (i 1).val = 0 * 64 + (i 1).val; omega)

/-! ## The arguments, wherever a segment reads them -/

set_option quotPrecheck false in
local notation "x0" => m ((c : Thread nD τ).loc main_arg0)
set_option quotPrecheck false in
local notation "x1" => m ((c : Thread nD τ).loc main_arg1)
set_option quotPrecheck false in
local notation "x2" => m ((c : Thread nD τ).loc main_arg2)
set_option quotPrecheck false in
local notation "x3" => m ((c : Thread nD τ).loc main_arg3)
set_option quotPrecheck false in
local notation "x4" => m ((c : Thread nD τ).loc main_arg4)
set_option quotPrecheck false in
local notation "x5" => m ((c : Thread nD τ).loc main_arg5)

theorem w3_arg0 : W3 m ρ c (Proc.devRef .tc main_arg0) = x0 := Edges.kept (W0 m ρ c) main_arg0 (.inl rfl)
theorem w3_arg1 : W3 m ρ c (Proc.devRef .tc main_arg1) = x1 := Edges.kept (W0 m ρ c) main_arg1 (.inr (.inl rfl))
theorem w3_arg2 : W3 m ρ c (Proc.devRef .tc main_arg2) = x2 := Edges.kept (W0 m ρ c) main_arg2 (.inr (.inr (.inl rfl)))
theorem w3_arg3 : W3 m ρ c (Proc.devRef .tc main_arg3) = x3 := Edges.kept (W0 m ρ c) main_arg3 (.inr (.inr (.inr (.inl rfl))))
theorem w3_arg4 : W3 m ρ c (Proc.devRef .tc main_arg4) = x4 := Edges.kept (W0 m ρ c) main_arg4 (.inr (.inr (.inr (.inr (.inl rfl)))))
theorem w3_arg5 : W3 m ρ c (Proc.devRef .tc main_arg5) = x5 := Edges.kept (W0 m ρ c) main_arg5 (.inr (.inr (.inr (.inr (.inr rfl)))))

/-! ## After the three stretches -/

theorem w3_sources : W3 m ρ c (Proc.devRef .tc main_v3) = Cert.ReferenceIdeal.ReadP.val_main_v3 (F := Ideal) x1 := Edges.sources_eq (W0 m ρ c)
theorem w3_targets : W3 m ρ c (Proc.devRef .tc main_v6) = Cert.ReferenceIdeal.ReadP.val_main_v6 (F := Ideal) x1 := Edges.targets_eq (W0 m ρ c)
theorem w3_weights : W3 m ρ c (Proc.devRef .tc main_v29) = Cert.ReferenceIdeal.ReadP.val_main_v29 (F := Ideal) x1 := Edges.weights_eq (W0 m ρ c)

/-! ## After the first dense region -/

theorem w4_sources : W4 m ρ c (Proc.devRef .tc main_v3) = Cert.ReferenceIdeal.ReadP.val_main_v3 (F := Ideal) x1 :=
  (W4_of_ne m ρ c main_v3 (by decide)).trans (w3_sources m ρ c)
theorem w4_targets : W4 m ρ c (Proc.devRef .tc main_v6) = Cert.ReferenceIdeal.ReadP.val_main_v6 (F := Ideal) x1 :=
  (W4_of_ne m ρ c main_v6 (by decide)).trans (w3_targets m ρ c)
theorem w4_weights : W4 m ρ c (Proc.devRef .tc main_v29) = Cert.ReferenceIdeal.ReadP.val_main_v29 (F := Ideal) x1 :=
  (W4_of_ne m ρ c main_v29 (by decide)).trans (w3_weights m ρ c)
theorem w4_arg3 : W4 m ρ c (Proc.devRef .tc main_arg3) = x3 := (W4_of_ne m ρ c main_arg3 (by decide)).trans (w3_arg3 m ρ c)
theorem w4_arg4 : W4 m ρ c (Proc.devRef .tc main_arg4) = x4 := (W4_of_ne m ρ c main_arg4 (by decide)).trans (w3_arg4 m ρ c)
theorem w4_arg5 : W4 m ρ c (Proc.devRef .tc main_arg5) = x5 := (W4_of_ne m ρ c main_arg5 (by decide)).trans (w3_arg5 m ρ c)

/-- The first dense region's output is the reference's first matrix product. -/
theorem w4_dense : W4 m ρ c (Proc.devRef .tc main_v30) = Cert.ReferenceIdeal.ReadP.val_main_v30 (F := Ideal) x0 x2 := by
  refine ((W4_arr m ρ c 2).trans (Dense0.array_eq (V3 m ρ) c)).trans ?_
  rw [show V3 m ρ c main_arg0 = x0 from w3_arg0 m ρ c, show V3 m ρ c main_arg2 = x2 from w3_arg2 m ρ c]
  funext i
  rw [Cert.ReferenceIdeal.ReadP.val_main_v30_apply]
  unfold Dense0.rowsTimes
  simp only [lidx30, ridx30]
  rfl

/-! ## After the first aggregation -/

theorem w5_sources : W5 m ρ c (Proc.devRef .tc main_v3) = Cert.ReferenceIdeal.ReadP.val_main_v3 (F := Ideal) x1 :=
  (Aggregate1.kept (W4 m ρ c) main_v3 (.inl rfl)).trans (w4_sources m ρ c)
theorem w5_targets : W5 m ρ c (Proc.devRef .tc main_v6) = Cert.ReferenceIdeal.ReadP.val_main_v6 (F := Ideal) x1 :=
  (Aggregate1.kept (W4 m ρ c) main_v6 (.inr (.inl rfl))).trans (w4_targets m ρ c)
theorem w5_weights : W5 m ρ c (Proc.devRef .tc main_v29) = Cert.ReferenceIdeal.ReadP.val_main_v29 (F := Ideal) x1 :=
  (Aggregate1.kept (W4 m ρ c) main_v29 (.inr (.inr (.inl rfl)))).trans (w4_weights m ρ c)
theorem w5_arg4 : W5 m ρ c (Proc.devRef .tc main_arg4) = x4 :=
  (Aggregate1.kept (W4 m ρ c) main_arg4 (.inr (.inr (.inr (.inl rfl))))).trans (w4_arg4 m ρ c)
theorem w5_arg5 : W5 m ρ c (Proc.devRef .tc main_arg5) = x5 :=
  (Aggregate1.kept (W4 m ρ c) main_arg5 (.inr (.inr (.inr (.inr rfl))))).trans (w4_arg5 m ρ c)

/-- The first aggregate is the reference's. -/
theorem w5_aggregate : W5 m ρ c (Proc.devRef .tc main_v43) = Cert.ReferenceIdeal.ReadP.val_main_v43 (F := Ideal) x0 x1 x2 := by
  refine (Aggregate1.aggregate_eq (W4 m ρ c)).trans ?_
  rw [w4_dense, w4_sources, w4_targets, w4_weights]
  exact (Aggregate1.reference_eq _ _ _).symm

/-- The first bias, laid out as one row. -/
theorem w5_biasRow : W5 m ρ c (Proc.devRef .tc main_v44) = shapeCast S1x128 x3 shapeCasts_S128_S1x128 := by
  refine (Aggregate1.biasRow_eq (W4 m ρ c)).trans ?_
  rw [w4_arg3]

/-! ## After the bias-and-activation region -/

theorem w6_sources : W6 m ρ c (Proc.devRef .tc main_v3) = Cert.ReferenceIdeal.ReadP.val_main_v3 (F := Ideal) x1 :=
  (W6_of_ne m ρ c main_v3 (by decide)).trans (w5_sources m ρ c)
theorem w6_targets : W6 m ρ c (Proc.devRef .tc main_v6) = Cert.ReferenceIdeal.ReadP.val_main_v6 (F := Ideal) x1 :=
  (W6_of_ne m ρ c main_v6 (by decide)).trans (w5_targets m ρ c)
theorem w6_weights : W6 m ρ c (Proc.devRef .tc main_v29) = Cert.ReferenceIdeal.ReadP.val_main_v29 (F := Ideal) x1 :=
  (W6_of_ne m ρ c main_v29 (by decide)).trans (w5_weights m ρ c)
theorem w6_arg4 : W6 m ρ c (Proc.devRef .tc main_arg4) = x4 := (W6_of_ne m ρ c main_arg4 (by decide)).trans (w5_arg4 m ρ c)
theorem w6_arg5 : W6 m ρ c (Proc.devRef .tc main_arg5) = x5 := (W6_of_ne m ρ c main_arg5 (by decide)).trans (w5_arg5 m ρ c)

/-- The hidden features: the aggregate plus the bias through the activation, as in the reference. -/
theorem w6_hidden : W6 m ρ c (Proc.devRef .tc main_v45) = Cert.ReferenceIdeal.ReadP.val_main_v51 (F := Ideal) x0 x1 x2 x3 := by
  refine ((W6_arr m ρ c 2).trans (Act1.array_eq (V5 m ρ) c)).trans ?_
  rw [show V5 m ρ c main_v43 = _ from w5_aggregate m ρ c, show V5 m ρ c main_v44 = _ from w5_biasRow m ρ c]
  funext i
  rw [Cert.ReferenceIdeal.ReadP.val_main_v51_apply, Cert.ReferenceIdeal.ReadP.val_main_v48_apply, Cert.ReferenceIdeal.ReadP.val_main_v50_apply, Cert.ReferenceIdeal.ReadP.val_main_v46_apply,
    Cert.ReferenceIdeal.ReadP.val_main_v47_apply, Cert.ReferenceIdeal.ReadP.val_main_cst_9_apply, Cert.ReferenceIdeal.ReadP.val_main_v49_apply, Cert.ReferenceIdeal.ReadP.val_main_cst_10_apply,
    Cert.ReferenceIdeal.ReadP.val_main_v45_apply, Cert.ReferenceIdeal.ReadP.val_main_v44_apply]
  unfold Act1.biasAct Act1.biased
  rw [row128_apply]

/-! ## After the second dense region -/

theorem w7_sources : W7 m ρ c (Proc.devRef .tc main_v3) = Cert.ReferenceIdeal.ReadP.val_main_v3 (F := Ideal) x1 :=
  (W7_of_ne m ρ c main_v3 (by decide)).trans (w6_sources m ρ c)
theorem w7_targets : W7 m ρ c (Proc.devRef .tc main_v6) = Cert.ReferenceIdeal.ReadP.val_main_v6 (F := Ideal) x1 :=
  (W7_of_ne m ρ c main_v6 (by decide)).trans (w6_targets m ρ c)
theorem w7_weights : W7 m ρ c (Proc.devRef .tc main_v29) = Cert.ReferenceIdeal.ReadP.val_main_v29 (F := Ideal) x1 :=
  (W7_of_ne m ρ c main_v29 (by decide)).trans (w6_weights m ρ c)
theorem w7_arg5 : W7 m ρ c (Proc.devRef .tc main_arg5) = x5 := (W7_of_ne m ρ c main_arg5 (by decide)).trans (w6_arg5 m ρ c)

/-- The second dense region's output is the reference's second matrix product. -/
theorem w7_dense : W7 m ρ c (Proc.devRef .tc main_v46) = Cert.ReferenceIdeal.ReadP.val_main_v52 (F := Ideal) x0 x1 x2 x3 x4 := by
  refine ((W7_arr m ρ c 2).trans (Dense2.array_eq (V6 m ρ) c)).trans ?_
  rw [show V6 m ρ c main_v45 = _ from w6_hidden m ρ c, show V6 m ρ c main_arg4 = x4 from w6_arg4 m ρ c]
  funext i
  rw [Cert.ReferenceIdeal.ReadP.val_main_v52_apply]
  unfold Dense2.rowsTimes
  simp only [lidx52, ridx52]
  rfl

/-! ## After the second aggregation -/

/-- The second aggregate is the reference's. -/
theorem w8_aggregate : W8 m ρ c (Proc.devRef .tc main_v59) = Cert.ReferenceIdeal.ReadP.val_main_v65 (F := Ideal) x0 x1 x2 x3 x4 := by
  refine (Aggregate3.aggregate_eq (W7 m ρ c)).trans ?_
  rw [w7_dense, w7_sources, w7_targets, w7_weights]
  exact (Aggregate3.reference_eq _ _ _ _ _).symm

/-- The second bias, laid out as one row. -/
theorem w8_biasRow : W8 m ρ c (Proc.devRef .tc main_v60) = shapeCast S1x64 x5 shapeCasts_S64_S1x64 := by
  refine (Aggregate3.biasRow_eq (W7 m ρ c)).trans ?_
  rw [w7_arg5]

/-! ## After the bias region: the result -/

/-- THE RESULT ARRAY, as the fold of the nine segments leaves it, is the reference's last stage of the six arguments. -/
theorem result_eq : W9 m ρ c (Proc.devRef .tc main_v61) = Cert.ReferenceIdeal.ReadP.val_main_v68 (F := Ideal) x0 x1 x2 x3 x4 x5 := by
  refine ((W9_arr m ρ c 2).trans (Bias3.array_eq (V8 m ρ) c)).trans ?_
  rw [show V8 m ρ c main_v59 = _ from w8_aggregate m ρ c, show V8 m ρ c main_v60 = _ from w8_biasRow m ρ c]
  funext i
  rw [Cert.ReferenceIdeal.ReadP.val_main_v68_apply, Cert.ReferenceIdeal.ReadP.val_main_v67_apply, Cert.ReferenceIdeal.ReadP.val_main_v66_apply]
  unfold Bias3.plusBias
  rw [row64_apply]

/-- The kernel program's run with its result read: the reference's last stage of the six arguments. -/
theorem run : θ_run defs (onTc (τ := τ) (main (F := Ideal))) ⟨m, fun _ => 0, ρ⟩ (fun r => ∀ c : Dev nD,
      r.2.mem ((c.tc : Thread nD τ).loc main_v61) = Cert.ReferenceIdeal.ReadP.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Named.run m ρ)

end Cert.KernelIdeal.Result

end
-- ==== Proof.lean ====
/- The certificate of a two-layer graph convolution against its plain reference, over the extended reals.

   Both programs compute, from node features `X`, an edge index `e`, weights `W₁`, `W₂` and biases `b₁`, `b₂`:
   the edge lists with one self-loop per node, each edge's weight `deg(u)^(-1/2) · deg(v)^(-1/2)`, the first layer
   `act (Agg (X · W₁) + b₁)` with `Agg` the weighted sum of the source rows into the target rows and `act` the leaky
   activation of slope 11/48 (one float word, the same in both programs), and the second layer `Agg (h · W₂) + b₂`.
   The reference does all of it with host operations. The kernel program runs the two matrix products, the
   bias-and-activation and the last bias add as four blocked regions over row blocks of 5000 nodes, with the same host
   operations in between.

   Read over the extended reals the two programs are the same function, operation by operation: narrowing a factor to
   the shorter float format is the identity, a block product into a zero accumulator is the sum over the contracted
   axis, exactly the host's matrix product at that entry, and the row blocks tile each region's output. No law that needs
   finite inputs is used, so the precondition is never opened.

   * the three frames: the kernel programs' are the generated frame certificates; the reference's is its run with the
     result dropped;
   * `preserves`: the idealization rewrote nothing, so there is nothing to state;
   * `algebraic`: both runs end with the result array at the reference's last stage applied to the six arguments
     (`Cert.KernelIdeal.Result.run` for the kernel program, the reference's run and its stage-by-stage reading for
     the reference), the arguments agreeing by hypothesis. -/
import proofs.«103656_j17454747091291_1_alg».proof.Defs
import proofs.«103656_j17454747091291_1_alg».proof.Proof.Gen.Kernel
import proofs.«103656_j17454747091291_1_alg».proof.Proof.Gen.Kernel.Frame
import proofs.«103656_j17454747091291_1_alg».proof.Proof.Gen.KernelIdeal
import proofs.«103656_j17454747091291_1_alg».proof.Proof.Gen.KernelIdeal.Frame
import proofs.«103656_j17454747091291_1_alg».proof.Proof.Gen.ReferenceIdeal
import proofs.«103656_j17454747091291_1_alg».proof.Proof.Gen.Pre_finite_inputs
import proofs.«103656_j17454747091291_1_alg».proof.Proof.Result
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six arguments both programs end with the result array at the reference's last
    stage of those arguments. -/
theorem algebraic : Cert.algebraic_KernelIdeal_ReferenceIdeal := by
  intro m ρ m' ρ' _ hagree
  refine ⟨fun c => Cert.ReferenceIdeal.ReadP.val_main_v68 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v68_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
